-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S1x1, .f32⟩
  | .hbm, ⟨85, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x1, .f32⟩
  | 7 => ⟨S1, .f32⟩
  | 8 => ⟨S100000x64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S100000, .i32⟩
  | 73 => ⟨S1x1600000, .i32⟩
  | 74 => ⟨S1600000, .i32⟩
  | 75 => ⟨S1700000, .i32⟩
  | 76 => ⟨S1x1600000, .i32⟩
  | 77 => ⟨S1600000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x1, .f32⟩
  | 7 => ⟨S1x1, .f32⟩
  | 8 => ⟨S100000x1, .f32⟩
  | 9 => ⟨S100000x1, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S_, .f32⟩
  | 16 => ⟨S100000x1, .f32⟩
  | 17 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Layers.lean ====
/-
  The network's three dense layers as functions of whole arrays, each spelt with the operations the reference
  applies, and each read at one entry on the extended reals.

  * `lin0 x w`   : the feature matrix times the first weight matrix, entry (r, c) = ∑ₖ x(r,k) · w(k,c).
  * `act a b`    : a bias row added to every row of `a`, then the rectifier: entry (r, k) = max (a(r,k) + b(0,k)) 0.
  * `lin1 a b w` : `act a b` times a weight matrix.
  * `out2 a b w d`: `act a b` times a one-column weight matrix, plus the scalar `d`, through the logistic
                    function written as the reference writes it, 1 / (1 + exp (−z)).

  Nothing here distributes a product over a sum or cancels: each reading is the operation's own definition at an
  index, so no entry has to be finite.
-/
import proofs.«138245_j8770323219100_1_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

namespace Cert.Layers

open Cert.ReferenceIdeal Cert.ReferenceIdeal.Gen Idealize.ShloMosaic Idealize.ShloMosaic.TcCoe Idealize.SL.Sem Idealize.ShloMosaic.StableHlo

variable {F : FTy → Type} [FloatOps F]

/-! ## The layers -/

/-- Rows of a [100000, 128] array against columns of a [128, 64] one. -/
def dot0 (y : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none y w
/-- Rows of a [100000, 64] array against columns of a [64, 64] one. -/
def dot1 (y : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none y w
/-- Rows of a [100000, 64] array against the one column of a [64, 1] one. -/
def dot2 (y : (⟨S100000x64, .f32⟩ : BufTy).Contents (Elt F)) (w : (⟨S64x1, .f32⟩ : BufTy).Contents (Elt F)) : (⟨S100000x1, .f32⟩ : BufTy).Contents (Elt F) :=
  Host.dotGeneral dot_S100000x64_S64x1_S100000x1_1_0_0_1_n_n none y w

/-- Features times the first weight matrix. -/
def lin0 (x : (⟨S100000x128, .f32⟩ : BufTy).Contents (Elt F)) (w : (⟨S128x64, .f32⟩ : BufTy).Contents (Elt F)) : (⟨S100000x64, .f32⟩ : BufTy).Contents (Elt F) :=
  dot0 (F := F) x w

/-- The all-zero array the rectifier compares with. -/
def zeros64 : (⟨S100000x64, .f32⟩ : BufTy).Contents (Elt F) :=
  broadcastInDim S100000x64 ![] bcast_S_S100000x64 (constant (F := F) S_ .f32 0x00000000#32)

/-- A bias row added to every row, then the rectifier. -/
def act (a : (⟨S100000x64, .f32⟩ : BufTy).Contents (Elt F)) (b : (⟨S1x64, .f32⟩ : BufTy).Contents (Elt F)) : (⟨S100000x64, .f32⟩ : BufTy).Contents (Elt F) :=
  maximumf (addf a (broadcastInDim S100000x64 ![0, 1] bcast_S1x64_S100000x64_0_1 b)) (zeros64 (F := F))

/-- Bias and rectifier, then the second weight matrix. -/
def lin1 (a : (⟨S100000x64, .f32⟩ : BufTy).Contents (Elt F)) (b : (⟨S1x64, .f32⟩ : BufTy).Contents (Elt F)) (w : (⟨S64x64, .f32⟩ : BufTy).Contents (Elt F)) : (⟨S100000x64, .f32⟩ : BufTy).Contents (Elt F) :=
  dot1 (F := F) (act (F := F) a b) w

/-- The array of ones of the logistic function's quotient. -/
def ones1 : (⟨S100000x1, .f32⟩ : BufTy).Contents (Elt F) :=
  broadcastInDim S100000x1 ![] bcast_S_S100000x1 (constant (F := F) S_ .f32 0x3F800000#32)

/-- The last layer's pre-activation: bias and rectifier, the one-column weight matrix, the output bias. -/
def logit2 (a : (⟨S100000x64, .f32⟩ : BufTy).Contents (Elt F)) (b : (⟨S1x64, .f32⟩ : BufTy).Contents (Elt F)) (w : (⟨S64x1, .f32⟩ : BufTy).Contents (Elt F)) (d : (⟨S1x1, .f32⟩ : BufTy).Contents (Elt F)) : (⟨S100000x1, .f32⟩ : BufTy).Contents (Elt F) :=
  addf (dot2 (F := F) (act (F := F) a b) w)
    (broadcastInDim S100000x1 ![0, 1] bcast_S1x1_S100000x1_0_1 d)

/-- The output: 1 / (1 + exp (−z)) of the pre-activation, as the reference spells the logistic function. -/
def out2 (a : (⟨S100000x64, .f32⟩ : BufTy).Contents (Elt F)) (b : (⟨S1x64, .f32⟩ : BufTy).Contents (Elt F)) (w : (⟨S64x1, .f32⟩ : BufTy).Contents (Elt F)) (d : (⟨S1x1, .f32⟩ : BufTy).Contents (Elt F)) : (⟨S100000x1, .f32⟩ : BufTy).Contents (Elt F) :=
  Host.divf (ones1 (F := F)) (addf (ones1 (F := F)) (Host.exp (Host.negf (logit2 (F := F) a b w d))))

/-! ## The three contractions read at an entry -/

theorem lhs_0_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs_0_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs_0_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs_0_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- Row `i 0` of the left operand, entry `k`. -/
abbrev l0 (i : S100000x64.Idx) (k : Fin 128) : S100000x128.Idx := fun a => match a with
  | ⟨0, _⟩ => ⟨(i 0).val, (i 0).isLt⟩
  | ⟨1, _⟩ => ⟨k.val, k.isLt⟩
/-- Column `i 1` of the right operand, entry `k`. -/
abbrev r0 (i : S100000x64.Idx) (k : Fin 128) : S128x64.Idx := fun a => match a with
  | ⟨0, _⟩ => ⟨k.val, k.isLt⟩
  | ⟨1, _⟩ => ⟨(i 1).val, (i 1).isLt⟩
/-- On the extended reals the host's contraction of axis 1 with axis 0 is the row-times-column sum. -/
theorem dot0_apply (y : (⟨S100000x128, .f32⟩ : BufTy).Contents (Elt Ideal)) (w : (⟨S128x64, .f32⟩ : BufTy).Contents (Elt Ideal)) (i : S100000x64.Idx) :
    dot0 (F := Ideal) y w i = ∑ k : Fin 128, y (l0 i k) * w (r0 i k) := by
  unfold dot0
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = l0 i k := funext fun a => Fin.ext (by
    match a with
    | ⟨0, _⟩ => exact lhs_0_0 _ _
    | ⟨1, _⟩ => exact (lhs_0_1 _ _).trans hk)
  have er : dot_S100000x128_S128x64_S100000x64_1_0_0_1_n_n.rhsIdx i ((ValueIdx.contrEquiv1 dot_S100000x128_S128x64_S100000x64_1_0_0_1_n_n 128 rfl rfl).symm k) = r0 i k := funext fun a => Fin.ext (by
    match a with
    | ⟨0, _⟩ => exact (rhs_0_0 _ _).trans hk
    | ⟨1, _⟩ => exact rhs_0_1 _ _)
  rw [el, er]

theorem lhs_1_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_1_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_1_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_1_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- Row `i 0` of the left operand, entry `k`. -/
abbrev l1 (i : S100000x64.Idx) (k : Fin 64) : S100000x64.Idx := fun a => match a with
  | ⟨0, _⟩ => ⟨(i 0).val, (i 0).isLt⟩
  | ⟨1, _⟩ => ⟨k.val, k.isLt⟩
/-- Column `i 1` of the right operand, entry `k`. -/
abbrev r1 (i : S100000x64.Idx) (k : Fin 64) : S64x64.Idx := fun a => match a with
  | ⟨0, _⟩ => ⟨k.val, k.isLt⟩
  | ⟨1, _⟩ => ⟨(i 1).val, (i 1).isLt⟩
/-- On the extended reals the host's contraction of axis 1 with axis 0 is the row-times-column sum. -/
theorem dot1_apply (y : (⟨S100000x64, .f32⟩ : BufTy).Contents (Elt Ideal)) (w : (⟨S64x64, .f32⟩ : BufTy).Contents (Elt Ideal)) (i : S100000x64.Idx) :
    dot1 (F := Ideal) y w i = ∑ k : Fin 64, y (l1 i k) * w (r1 i k) := by
  unfold dot1
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = l1 i k := funext fun a => Fin.ext (by
    match a with
    | ⟨0, _⟩ => exact lhs_1_0 _ _
    | ⟨1, _⟩ => exact (lhs_1_1 _ _).trans hk)
  have er : dot_S100000x64_S64x64_S100000x64_1_0_0_1_n_n.rhsIdx i ((ValueIdx.contrEquiv1 dot_S100000x64_S64x64_S100000x64_1_0_0_1_n_n 64 rfl rfl).symm k) = r1 i k := funext fun a => Fin.ext (by
    match a with
    | ⟨0, _⟩ => exact (rhs_1_0 _ _).trans hk
    | ⟨1, _⟩ => exact rhs_1_1 _ _)
  rw [el, er]

theorem lhs_2_0 (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide), dif_pos (show (0 : Fin S100000x64.rank) ∈ dot_S100000x64_S64x1_S100000x1_1_0_0_1_n_n.lhsNonContracting by decide)]
  rfl
theorem lhs_2_1 (i : S100000x1.Idx) (q : dot_S100000x64_S64x1_S100000x1_1_0_0_1_n_n.contr.Idx) :
    (dot_S100000x64_S64x1_S100000x1_1_0_0_1_n_n.lhsIdx i q 1).val = (q ⟨0, by decide⟩).val :=
  dot_S100000x64_S64x1_S100000x1_1_0_0_1_n_n.lhsIdx_val_of_single rfl i q
theorem rhs_2_0 (i : S100000x1.Idx) (q : dot_S100000x64_S64x1_S100000x1_1_0_0_1_n_n.contr.Idx) :
    (dot_S100000x64_S64x1_S100000x1_1_0_0_1_n_n.rhsIdx i q 0).val = (q ⟨0, by decide⟩).val :=
  dot_S100000x64_S64x1_S100000x1_1_0_0_1_n_n.rhsIdx_val_of_single rfl i q
theorem rhs_2_1 (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide), dif_pos (show (1 : Fin S64x1.rank) ∈ dot_S100000x64_S64x1_S100000x1_1_0_0_1_n_n.rhsNonContracting by decide)]
  rfl
/-- Row `i 0` of the left operand, entry `k`. -/
abbrev l2 (i : S100000x1.Idx) (k : Fin 64) : S100000x64.Idx := fun a => match a with
  | ⟨0, _⟩ => ⟨(i 0).val, (i 0).isLt⟩
  | ⟨1, _⟩ => ⟨k.val, k.isLt⟩
/-- Column `i 1` of the right operand, entry `k`. -/
abbrev r2 (i : S100000x1.Idx) (k : Fin 64) : S64x1.Idx := fun a => match a with
  | ⟨0, _⟩ => ⟨k.val, k.isLt⟩
  | ⟨1, _⟩ => ⟨(i 1).val, (i 1).isLt⟩
/-- On the extended reals the host's contraction of axis 1 with axis 0 is the row-times-column sum. -/
theorem dot2_apply (y : (⟨S100000x64, .f32⟩ : BufTy).Contents (Elt Ideal)) (w : (⟨S64x1, .f32⟩ : BufTy).Contents (Elt Ideal)) (i : S100000x1.Idx) :
    dot2 (F := Ideal) y w i = ∑ k : Fin 64, y (l2 i k) * w (r2 i k) := by
  unfold dot2
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = l2 i k := funext fun a => Fin.ext (by
    match a with
    | ⟨0, _⟩ => exact lhs_2_0 _ _
    | ⟨1, _⟩ => exact (lhs_2_1 _ _).trans hk)
  have er : dot_S100000x64_S64x1_S100000x1_1_0_0_1_n_n.rhsIdx i ((ValueIdx.contrEquiv1 dot_S100000x64_S64x1_S100000x1_1_0_0_1_n_n 64 rfl rfl).symm k) = r2 i k := funext fun a => Fin.ext (by
    match a with
    | ⟨0, _⟩ => exact (rhs_2_0 _ _).trans hk
    | ⟨1, _⟩ => exact rhs_2_1 _ _)
  rw [el, er]

/-! ## The layers read at an entry -/

theorem lin0_apply (x : (⟨S100000x128, .f32⟩ : BufTy).Contents (Elt Ideal)) (w : (⟨S128x64, .f32⟩ : BufTy).Contents (Elt Ideal)) (i : S100000x64.Idx) :
    lin0 (F := Ideal) x w i = ∑ k : Fin 128, x (l0 i k) * w (r0 i k) := dot0_apply x w i

/-- The bias row's entry under column `i 1`. -/
abbrev brow (i : S100000x64.Idx) : S1x64.Idx := fun a => match a with
  | ⟨0, _⟩ => ⟨0, Nat.one_pos⟩
  | ⟨1, _⟩ => ⟨(i 1).val, (i 1).isLt⟩

theorem zeros64_apply (i : S100000x64.Idx) : zeros64 (F := Ideal) i = Ideal.ofBits .f32 0x00000000#32 := by
  unfold zeros64
  exact broadcastInDim_apply _ bcast_S_S100000x64 _ i (fun a => a.elim0) (fun a => a.elim0)

theorem act_apply (a : (⟨S100000x64, .f32⟩ : BufTy).Contents (Elt Ideal)) (b : (⟨S1x64, .f32⟩ : BufTy).Contents (Elt Ideal)) (i : S100000x64.Idx) :
    act (F := Ideal) a b i = max (a i + b (brow i)) (Ideal.ofBits .f32 0x00000000#32) := by
  have hb : broadcastInDim S100000x64 ![0, 1] bcast_S1x64_S100000x64_0_1 b i = b (brow i) :=
    broadcastInDim_apply _ bcast_S1x64_S100000x64_0_1 b i (brow i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  show max (a i + broadcastInDim S100000x64 ![0, 1] bcast_S1x64_S100000x64_0_1 b i) (zeros64 (F := Ideal) i) = _
  rw [hb, zeros64_apply]

theorem lin1_apply (a : (⟨S100000x64, .f32⟩ : BufTy).Contents (Elt Ideal)) (b : (⟨S1x64, .f32⟩ : BufTy).Contents (Elt Ideal)) (w : (⟨S64x64, .f32⟩ : BufTy).Contents (Elt Ideal)) (i : S100000x64.Idx) :
    lin1 (F := Ideal) a b w i = ∑ k : Fin 64, act (F := Ideal) a b (l1 i k) * w (r1 i k) := dot1_apply _ w i

/-- The output bias's one entry. -/
abbrev bone : S1x1.Idx := fun a => match a with
  | ⟨0, _⟩ => ⟨0, Nat.one_pos⟩
  | ⟨1, _⟩ => ⟨0, Nat.one_pos⟩

theorem logit2_apply (a : (⟨S100000x64, .f32⟩ : BufTy).Contents (Elt Ideal)) (b : (⟨S1x64, .f32⟩ : BufTy).Contents (Elt Ideal)) (w : (⟨S64x1, .f32⟩ : BufTy).Contents (Elt Ideal)) (d : (⟨S1x1, .f32⟩ : BufTy).Contents (Elt Ideal)) (i : S100000x1.Idx) :
    logit2 (F := Ideal) a b w d i = (∑ k : Fin 64, act (F := Ideal) a b (l2 i k) * w (r2 i k)) + d bone := by
  have hd : broadcastInDim S100000x1 ![0, 1] bcast_S1x1_S100000x1_0_1 d i = d bone :=
    broadcastInDim_apply _ bcast_S1x1_S100000x1_0_1 d i bone (fun a => match a with
      | ⟨0, _⟩ => by show 0 = if (1 : Nat) = 1 then 0 else (i 0).val; rw [if_pos rfl]
      | ⟨1, _⟩ => by show 0 = if (1 : Nat) = 1 then 0 else (i 1).val; rw [if_pos rfl])
  show dot2 (F := Ideal) (act (F := Ideal) a b) w i
      + broadcastInDim S100000x1 ![0, 1] bcast_S1x1_S100000x1_0_1 d i = _
  rw [hd, dot2_apply]

theorem ones1_apply (i : S100000x1.Idx) : ones1 (F := Ideal) i = 1 := by
  unfold ones1
  refine (broadcastInDim_apply _ bcast_S_S100000x1 _ i (fun a => a.elim0) (fun a => a.elim0)).trans ?_
  exact Ideal.ofBits_one_f32

/-- The reference's spelling of the logistic function is the logistic function. -/
theorem out2_apply (a : (⟨S100000x64, .f32⟩ : BufTy).Contents (Elt Ideal)) (b : (⟨S1x64, .f32⟩ : BufTy).Contents (Elt Ideal)) (w : (⟨S64x1, .f32⟩ : BufTy).Contents (Elt Ideal)) (d : (⟨S1x1, .f32⟩ : BufTy).Contents (Elt Ideal)) (i : S100000x1.Idx) :
    out2 (F := Ideal) a b w d i = Ideal.logistic (logit2 (F := Ideal) a b w d i) := by
  show Ideal.div (ones1 (F := Ideal) i) (ones1 (F := Ideal) i + Ideal.exp (-(logit2 (F := Ideal) a b w d i))) = _
  rw [ones1_apply]
  rfl

end Cert.Layers

end
-- ==== Proof.Region0.lean ====
/-
  The first pallas_call, ten row blocks of 10000 rows: what its output array holds when the region ends.

  Point t loads rows [10000 t, 10000 t + 10000) of the feature matrix and the whole weight matrix, and stores their
  product into the same rows of the output. On the extended reals a change of float format is the identity and the
  product into a zero accumulator is the plain row-times-column sum, so entry (r, c) of the block that point t writes
  back is ∑ₖ x(10000 t + r, k) · w(k, c): the block of `Layers.lin0 x w` at t. The ten blocks tile the 100000 rows,
  so the array ends holding `Layers.lin0 x w`, whatever the region found in the two operand arrays.
-/
import proofs.«138245_j8770323219100_1_alg».proof.Proof.Gen.KernelIdeal.Frame
import proofs.«138245_j8770323219100_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

/-! ## The body's product at an entry -/

theorem lhs_b_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_b_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_b_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_b_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- Row `i 0` of the left block, entry `k`. -/
abbrev lb (i : S10000x64.Idx) (k : Fin 128) : S10000x128.Idx := fun a => match a with
  | ⟨0, _⟩ => ⟨(i 0).val, (i 0).isLt⟩
  | ⟨1, _⟩ => ⟨k.val, k.isLt⟩
/-- Column `i 1` of the right block, entry `k`. -/
abbrev rb (i : S10000x64.Idx) (k : Fin 128) : S128x64.Idx := fun a => match a with
  | ⟨0, _⟩ => ⟨k.val, k.isLt⟩
  | ⟨1, _⟩ => ⟨(i 1).val, (i 1).isLt⟩
/-- The block product into a zero accumulator, on the extended reals, is the row-times-column sum. -/
theorem mm_apply (y : FVec Ideal S10000x128 .bf16) (w : FVec Ideal S128x64 .bf16) (i : S10000x64.Idx) :
    matmul (F := Ideal) dot_S10000x128_S128x64_S10000x64_1_0_0_1_n_n none y w (constant S10000x64 .f32 0x00000000#32) i = ∑ k : Fin 128, y (lb i k) * w (rb i k) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = lb i k := funext fun a => Fin.ext (by
    match a with
    | ⟨0, _⟩ => exact lhs_b_0 _ _
    | ⟨1, _⟩ => exact (lhs_b_1 _ _).trans hk)
  have er : dot_S10000x128_S128x64_S10000x64_1_0_0_1_n_n.rhsIdx i ((ValueIdx.contrEquiv1 dot_S10000x128_S128x64_S10000x64_1_0_0_1_n_n 128 rfl rfl).symm k) = rb i k := funext fun a => Fin.ext (by
    match a with
    | ⟨0, _⟩ => exact (rhs_b_0 _ _).trans hk
    | ⟨1, _⟩ => exact rhs_b_1 _ _)
  rw [el, er]

/-- What the body stores, at an entry, from the two blocks it loaded. -/
theorem pay_apply (x0 : Vec Ideal S10000x128 .f32) (x1 : Vec Ideal S128x64 .f32) (i : S10000x64.Idx) :
    k0_pay1 (F := Ideal) x0 x1 i = ∑ k : Fin 128, x0 (lb i k) * x1 (rb i k) := by
  unfold k0_pay1
  exact mm_apply _ _ i

/-! ## The printed index maps over the grid -/

theorem hz : (![0, 0] : Fin 2 → Nat) = fun _ => 0 := funext fun a => by fin_cases a <;> rfl

/-- The feature window moves with the output window down the rows; the weight window stays; column blocks are 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-! ## What a point writes back, and the whole array -/

variable (V : (c : Dev nD) → (b : Ref sig .tc) → Buf (Elt Ideal) ((c : Thread nD τ).loc b))

/-- Point `t` writes back block `t` of the product of the two operand arrays as the region found them. -/
theorem flushed_eq (c : Dev nD) (t : Fin cfg0.N) :
    (dat0 (F := Ideal) V c).flushed 2 t
      = ((cfg0.win 2).blk t).view.read (Elt Ideal) (Cert.Layers.lin0 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x64) hz]
  obtain ⟨e0, e1, e2, e3, e4⟩ := idx_facts t
  funext j
  show k0_pay1 (F := Ideal) (iblk0 V c 0 t) (iblk0 V c 1 t) j
      = Cert.Layers.lin0 (F := Ideal) (V c main_arg0) (V c main_arg2) (((cfg0.win 2).blk t).view.emb j)
  refine (pay_apply (iblk0 V c 0 t) (iblk0 V c 1 t) j).trans ?_
  refine (Finset.sum_congr rfl fun k _ => ?_).trans (Cert.Layers.lin0_apply (V c main_arg0) (V c main_arg2) _).symm
  have h0 : iblk0 V c 0 t (lb j k) = V c main_arg0 (Cert.Layers.l0 (((cfg0.win 2).blk t).view.emb j) k) := by
    show V c main_arg0 (((cfg0.win 0).blk t).view.emb (lb j k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; rw [e0]
    | ⟨1, _⟩ => show win0_0.index t (1 : Fin 2) * 128 + 1 * k.val = k.val; rw [e1]; omega
  have h1 : iblk0 V c 1 t (rb j k) = V c main_arg2 (Cert.Layers.r0 (((cfg0.win 2).blk t).view.emb j) k) := by
    show V c main_arg2 (((cfg0.win 1).blk t).view.emb (rb j k)) = _
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 64 + 1 * (j 1).val = win0_2.index t (1 : Fin 2) * 64 + 1 * (j 1).val; rw [e3, e4]
  rw [h0, h1]

/-- An entry of the output array lies in point `t`'s block iff each coordinate lies in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` lies in the block of point `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- When the region ends its output array holds the product of the two operand arrays. -/
theorem final (c : Dev nD) :
    (dat0 (F := Ideal) V c).arrAt 2 cfg0.N = Cert.Layers.lin0 (F := Ideal) (V c main_arg0) (V c main_arg2) :=
  (dat0 (F := Ideal) V c).arrAt_eq_of_cover 2 _ (fun t _ => flushed_eq V c t) cover

end Cert.KernelIdeal.Region0

end
-- ==== Proof.Region1.lean ====
/-
  The second pallas_call, ten row blocks of 10000 rows: what its output array holds when the region ends.

  Point t loads rows [10000 t, 10000 t + 10000) of the aggregated first layer, the bias row and the whole second
  weight matrix; it adds the bias row to every loaded row, takes the maximum with 0, and stores the product with
  the weight matrix into the same rows of the output. On the extended reals entry (r, c) of the block point t
  writes back is ∑ₖ max (a(10000 t + r, k) + b(0, k)) 0 · w(k, c): the block of `Layers.lin1 a b w` at t. The ten
  blocks tile the 100000 rows, so the array ends holding `Layers.lin1 a b w` of the three operand arrays as the
  region found them.
-/
import proofs.«138245_j8770323219100_1_alg».proof.Proof.Gen.KernelIdeal.Frame
import proofs.«138245_j8770323219100_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

/-! ## The body's value at an entry -/

theorem lhs_b_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_b_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_b_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_b_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl
/-- Row `i 0` of the left block, entry `k`. -/
abbrev lb (i : S10000x64.Idx) (k : Fin 64) : S10000x64.Idx := fun a => match a with
  | ⟨0, _⟩ => ⟨(i 0).val, (i 0).isLt⟩
  | ⟨1, _⟩ => ⟨k.val, k.isLt⟩
/-- Column `i 1` of the right block, entry `k`. -/
abbrev rb (i : S10000x64.Idx) (k : Fin 64) : S64x64.Idx := fun a => match a with
  | ⟨0, _⟩ => ⟨k.val, k.isLt⟩
  | ⟨1, _⟩ => ⟨(i 1).val, (i 1).isLt⟩
/-- The block product into a zero accumulator, on the extended reals, is the row-times-column sum. -/
theorem mm_apply (y : FVec Ideal S10000x64 .bf16) (w : FVec Ideal S64x64 .bf16) (i : S10000x64.Idx) :
    matmul (F := Ideal) dot_S10000x64_S64x64_S10000x64_1_0_0_1_n_n none y w (constant S10000x64 .f32 0x00000000#32) i = ∑ k : Fin 64, y (lb i k) * w (rb i k) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = lb i k := funext fun a => Fin.ext (by
    match a with
    | ⟨0, _⟩ => exact lhs_b_0 _ _
    | ⟨1, _⟩ => exact (lhs_b_1 _ _).trans hk)
  have er : dot_S10000x64_S64x64_S10000x64_1_0_0_1_n_n.rhsIdx i ((ValueIdx.contrEquiv1 dot_S10000x64_S64x64_S10000x64_1_0_0_1_n_n 64 rfl rfl).symm k) = rb i k := funext fun a => Fin.ext (by
    match a with
    | ⟨0, _⟩ => exact (rhs_b_0 _ _).trans hk
    | ⟨1, _⟩ => exact rhs_b_1 _ _)
  rw [el, er]

/-- The bias row's entry under column `y 1`. -/
abbrev b0 (y : S10000x64.Idx) : S1x64.Idx := fun a => match a with
  | ⟨0, _⟩ => ⟨0, Nat.one_pos⟩
  | ⟨1, _⟩ => ⟨(y 1).val, (y 1).isLt⟩

/-- One row broadcast down the block's rows reads the row at the entry's column. -/
theorem bias_apply (v : Vec Ideal S1x64 .f32) (y : S10000x64.Idx) :
    broadcastTo S10000x64 v broadcasts_S1x64_S10000x64 y = v (b0 y) := by
  refine broadcastTo_apply v broadcasts_S1x64_S10000x64 y (b0 y) fun ax => ?_
  match ax with
  | ⟨0, _⟩ => show 0 = if (1 : Nat) = 1 then 0 else (y 0).val; rw [if_pos rfl]
  | ⟨1, _⟩ => show (y 1).val = if (64 : Nat) = 1 then 0 else (y 1).val; rw [if_neg (by decide)]

/-- What the body stores, at an entry, from the three blocks it loaded. -/
theorem pay_apply (x0 : Vec Ideal S10000x64 .f32) (x1 : Vec Ideal S1x64 .f32) (x2 : Vec Ideal S64x64 .f32) (i : S10000x64.Idx) :
    k1_pay1 (F := Ideal) x0 x1 x2 i
      = ∑ k : Fin 64, max (x0 (lb i k) + x1 (b0 (lb i k))) (Ideal.ofBits .f32 0x00000000#32) * x2 (rb i k) := by
  unfold k1_pay1
  refine (mm_apply _ _ i).trans (Finset.sum_congr rfl fun k _ => ?_)
  show max (shapeCast S10000x64 x0 shapeCasts_S10000x64_S10000x64 (lb i k)
        + broadcastTo S10000x64 (shapeCast S1x64 x1 shapeCasts_S1x64_S1x64) broadcasts_S1x64_S10000x64 (lb i k))
      (Ideal.ofBits .f32 0x00000000#32) * x2 (rb i k) = _
  rw [shapeCast_self, bias_apply, shapeCast_self]

/-! ## The printed index maps over the grid -/

theorem hz : (![0, 0] : Fin 2 → Nat) = fun _ => 0 := funext fun a => by fin_cases a <;> rfl

/-- The aggregated rows move with the output window; the bias row and the weight matrix stay; column blocks are 0. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every one of the ten row blocks is some point's. -/
theorem idx_onto : ∀ q : Fin 10, ∃ t : Fin cfg1.N, win1_3.index t = ![q.val, 0] :=
  (by decide +kernel : ∀ q : Fin 10, ∃ t : Fin grid1.N, win1_3.index t = ![q.val, 0])

/-! ## What a point writes back, and the whole array -/

variable (V : (c : Dev nD) → (b : Ref sig .tc) → Buf (Elt Ideal) ((c : Thread nD τ).loc b))

/-- Point `t` writes back block `t` of the layer of the three operand arrays as the region found them. -/
theorem flushed_eq (c : Dev nD) (t : Fin cfg1.N) :
    (dat1 (F := Ideal) V c).flushed 3 t
      = ((cfg1.win 3).blk t).view.read (Elt Ideal) (Cert.Layers.lin1 (F := Ideal) (V c main_v43) (V c main_v44) (V c main_arg4)) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6⟩ := idx_facts t
  funext j
  show k1_pay1 (F := Ideal) (iblk1 V c 0 t) (iblk1 V c 1 t) (iblk1 V c 2 t) j
      = Cert.Layers.lin1 (F := Ideal) (V c main_v43) (V c main_v44) (V c main_arg4) (((cfg1.win 3).blk t).view.emb j)
  refine (pay_apply (iblk1 V c 0 t) (iblk1 V c 1 t) (iblk1 V c 2 t) j).trans ?_
  refine (Finset.sum_congr rfl fun k _ => ?_).trans (Cert.Layers.lin1_apply (V c main_v43) (V c main_v44) (V c main_arg4) _).symm
  rw [Cert.Layers.act_apply]
  have h0 : iblk1 V c 0 t (lb j k) = V c main_v43 (Cert.Layers.l1 (((cfg1.win 3).blk t).view.emb j) k) := by
    show V c main_v43 (((cfg1.win 0).blk t).view.emb (lb j k)) = _
    refine congrArg (V c main_v43) (funext fun a => Fin.ext ?_)
    match a with
    | ⟨0, _⟩ => show win1_0.index t (0 : Fin 2) * 10000 + 1 * (j 0).val = win1_3.index t (0 : Fin 2) * 10000 + 1 * (j 0).val; rw [e0]
    | ⟨1, _⟩ => show win1_0.index t (1 : Fin 2) * 64 + 1 * k.val = k.val; rw [e1]; omega
  have hb : iblk1 V c 1 t (b0 (lb j k)) = V c main_v44 (Cert.Layers.brow (Cert.Layers.l1 (((cfg1.win 3).blk t).view.emb j) k)) := by
    show V c main_v44 (((cfg1.win 1).blk t).view.emb (b0 (lb j k))) = _
    refine congrArg (V c main_v44) (funext fun a => Fin.ext ?_)
    match a with
    | ⟨0, _⟩ => show win1_1.index t (0 : Fin 2) * 1 + 1 * 0 = 0; rw [e2]
    | ⟨1, _⟩ => show win1_1.index t (1 : Fin 2) * 64 + 1 * k.val = k.val; rw [e3]; omega
  have h2 : iblk1 V c 2 t (rb j k) = V c main_arg4 (Cert.Layers.r1 (((cfg1.win 3).blk t).view.emb j) k) := by
    show V c main_arg4 (((cfg1.win 2).blk t).view.emb (rb j k)) = _
    refine congrArg (V c main_arg4) (funext fun a => Fin.ext ?_)
    match a with
    | ⟨0, _⟩ => show win1_2.index t (0 : Fin 2) * 64 + 1 * k.val = k.val; rw [e4]; omega
    | ⟨1, _⟩ => show win1_2.index t (1 : Fin 2) * 64 + 1 * (j 1).val = win1_3.index t (1 : Fin 2) * 64 + 1 * (j 1).val; rw [e5, e6]
  rw [h0, hb, h2]

/-- An entry of the output array lies in point `t`'s block iff each coordinate lies in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- Row `r` lies in the block of point `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- When the region ends its output array holds the layer of the three operand arrays. -/
theorem final (c : Dev nD) :
    (dat1 (F := Ideal) V c).arrAt 3 cfg1.N = Cert.Layers.lin1 (F := Ideal) (V c main_v43) (V c main_v44) (V c main_arg4) :=
  (dat1 (F := Ideal) V c).arrAt_eq_of_cover 3 _ (fun t _ => flushed_eq V c t) cover

end Cert.KernelIdeal.Region1

end
-- ==== Proof.Region2.lean ====
/-
  The third pallas_call, ten row blocks of 10000 rows: what its output array holds when the region ends.

  Point t loads rows [10000 t, 10000 t + 10000) of the aggregated second layer, the bias row, the one-column weight
  matrix and the 1 × 1 output bias; it adds the bias row to every loaded row, takes the maximum with 0, multiplies by
  the weight column, adds the output bias, and stores the logistic function of that into the same rows of the output.
  On the extended reals entry (r, 0) of the block point t writes back is
  logistic (∑ₖ max (a(10000 t + r, k) + b(0, k)) 0 · w(k, 0) + d(0, 0)), and the reference's 1 / (1 + exp (−z)) is
  that same function of z: the block of `Layers.out2 a b w d` at t. The ten blocks tile the 100000 rows, so the
  array ends holding `Layers.out2 a b w d` of the four operand arrays as the region found them.
-/
import proofs.«138245_j8770323219100_1_alg».proof.Proof.Gen.KernelIdeal.Frame
import proofs.«138245_j8770323219100_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)

/-! ## The body's value at an entry -/

theorem lhs_b_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_b_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_b_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_b_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl
/-- Row `i 0` of the left block, entry `k`. -/
abbrev lb (i : S10000x1.Idx) (k : Fin 64) : S10000x64.Idx := fun a => match a with
  | ⟨0, _⟩ => ⟨(i 0).val, (i 0).isLt⟩
  | ⟨1, _⟩ => ⟨k.val, k.isLt⟩
/-- Column `i 1` of the right block, entry `k`. -/
abbrev rb (i : S10000x1.Idx) (k : Fin 64) : S64x1.Idx := fun a => match a with
  | ⟨0, _⟩ => ⟨k.val, k.isLt⟩
  | ⟨1, _⟩ => ⟨(i 1).val, (i 1).isLt⟩
/-- The block product into a zero accumulator, on the extended reals, is the row-times-column sum. -/
theorem mm_apply (y : FVec Ideal S10000x64 .bf16) (w : FVec Ideal S64x1 .bf16) (i : S10000x1.Idx) :
    matmul (F := Ideal) dot_S10000x64_S64x1_S10000x1_1_0_0_1_n_n none y w (constant S10000x1 .f32 0x00000000#32) i = ∑ k : Fin 64, y (lb i k) * w (rb i k) := by
  simp only [matmul]
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx i ((ValueIdx.contrEquiv1 dot_S10000x64_S64x1_S10000x1_1_0_0_1_n_n 64 rfl rfl).symm k) = lb i k := funext fun a => Fin.ext (by
    match a with
    | ⟨0, _⟩ => exact lhs_b_0 _ _
    | ⟨1, _⟩ => exact (lhs_b_1 _ _).trans hk)
  have er : dot_S10000x64_S64x1_S10000x1_1_0_0_1_n_n.rhsIdx i ((ValueIdx.contrEquiv1 dot_S10000x64_S64x1_S10000x1_1_0_0_1_n_n 64 rfl rfl).symm k) = rb i k := funext fun a => Fin.ext (by
    match a with
    | ⟨0, _⟩ => exact (rhs_b_0 _ _).trans hk
    | ⟨1, _⟩ => exact rhs_b_1 _ _)
  rw [el, er]

/-- The bias row's entry under column `y 1`. -/
abbrev b0 (y : S10000x64.Idx) : S1x64.Idx := fun a => match a with
  | ⟨0, _⟩ => ⟨0, Nat.one_pos⟩
  | ⟨1, _⟩ => ⟨(y 1).val, (y 1).isLt⟩

/-- One row broadcast down the block's rows reads the row at the entry's column. -/
theorem bias_apply (v : Vec Ideal S1x64 .f32) (y : S10000x64.Idx) :
    broadcastTo S10000x64 v broadcasts_S1x64_S10000x64 y = v (b0 y) := by
  refine broadcastTo_apply v broadcasts_S1x64_S10000x64 y (b0 y) fun ax => ?_
  match ax with
  | ⟨0, _⟩ => show 0 = if (1 : Nat) = 1 then 0 else (y 0).val; rw [if_pos rfl]
  | ⟨1, _⟩ => show (y 1).val = if (64 : Nat) = 1 then 0 else (y 1).val; rw [if_neg (by decide)]

/-- The output bias's one entry. -/
abbrev o0 : S1x1.Idx := fun a => match a with
  | ⟨0, _⟩ => ⟨0, Nat.one_pos⟩
  | ⟨1, _⟩ => ⟨0, Nat.one_pos⟩

/-- A 1 × 1 array broadcast down the block's rows reads its one entry. -/
theorem obias_apply (v : Vec Ideal S1x1 .f32) (y : S10000x1.Idx) :
    broadcastTo S10000x1 v broadcasts_S1x1_S10000x1 y = v o0 := by
  refine broadcastTo_apply v broadcasts_S1x1_S10000x1 y o0 fun ax => ?_
  match ax with
  | ⟨0, _⟩ => show 0 = if (1 : Nat) = 1 then 0 else (y 0).val; rw [if_pos rfl]
  | ⟨1, _⟩ => show 0 = if (1 : Nat) = 1 then 0 else (y 1).val; rw [if_pos rfl]

/-- What the body stores, at an entry, from the four blocks it loaded. -/
theorem pay_apply (x0 : Vec Ideal S10000x64 .f32) (x1 : Vec Ideal S1x64 .f32) (x2 : Vec Ideal S64x1 .f32) (x3 : Vec Ideal S1x1 .f32) (i : S10000x1.Idx) :
    k2_pay1 (F := Ideal) x0 x1 x2 x3 i
      = Ideal.logistic ((∑ k : Fin 64, max (x0 (lb i k) + x1 (b0 (lb i k))) (Ideal.ofBits .f32 0x00000000#32) * x2 (rb i k)) + x3 o0) := by
  unfold k2_pay1
  refine congrArg Ideal.logistic (congrArg₂ (· + ·) ((mm_apply _ _ i).trans (Finset.sum_congr rfl fun k _ => ?_)) ?_)
  · show max (shapeCast S10000x64 x0 shapeCasts_S10000x64_S10000x64 (lb i k)
          + broadcastTo S10000x64 (shapeCast S1x64 x1 shapeCasts_S1x64_S1x64) broadcasts_S1x64_S10000x64 (lb i k))
        (Ideal.ofBits .f32 0x00000000#32) * x2 (rb i k) = _
    rw [shapeCast_self, bias_apply, shapeCast_self]
  · show broadcastTo S10000x1 (shapeCast S1x1 x3 shapeCasts_S1x1_S1x1) broadcasts_S1x1_S10000x1 i = _
    rw [obias_apply, shapeCast_self]

/-! ## The printed index maps over the grid -/

theorem hz : (![0, 0] : Fin 2 → Nat) = fun _ => 0 := funext fun a => by fin_cases a <;> rfl

/-- The aggregated rows move with the output window; bias row, weight column and output bias stay; column blocks are 0. -/
theorem idx_facts : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (1 : Fin 2) = 0 :=
  (by decide +kernel : ∀ t : Fin grid2.N, _)

/-- Every one of the ten row blocks is some point's. -/
theorem idx_onto : ∀ q : Fin 10, ∃ t : Fin cfg2.N, win2_4.index t = ![q.val, 0] :=
  (by decide +kernel : ∀ q : Fin 10, ∃ t : Fin grid2.N, win2_4.index t = ![q.val, 0])

/-! ## What a point writes back, and the whole array -/

variable (V : (c : Dev nD) → (b : Ref sig .tc) → Buf (Elt Ideal) ((c : Thread nD τ).loc b))

/-- Point `t` writes back block `t` of the output layer of the four operand arrays as the region found them. -/
theorem flushed_eq (c : Dev nD) (t : Fin cfg2.N) :
    (dat2 (F := Ideal) V c).flushed 4 t
      = ((cfg2.win 4).blk t).view.read (Elt Ideal)
          (Cert.Layers.out2 (F := Ideal) (V c main_v58) (V c main_v59) (V c main_arg6) (V c main_v60)) := by
  show (cfg2.win 4).cut (grid2.coords t) ((dat2 (F := Ideal) V c).after 4 t) = _
  rw [after2_4]
  unfold out2_4
  rw [View.canon_unit_zero hz]
  simp only [View.ld_unit_zero (S := S10000x64) hz, View.ld_unit_zero (S := S1x64) hz, View.ld_unit_zero (S := S64x1) hz, View.ld_unit_zero (S := S1x1) hz]
  obtain ⟨e0, e1, e2, e3, e4, e5, e6, e7, e8⟩ := idx_facts t
  funext j
  show k2_pay1 (F := Ideal) (iblk2 V c 0 t) (iblk2 V c 1 t) (iblk2 V c 2 t) (iblk2 V c 3 t) j
      = Cert.Layers.out2 (F := Ideal) (V c main_v58) (V c main_v59) (V c main_arg6) (V c main_v60) (((cfg2.win 4).blk t).view.emb j)
  refine (pay_apply (iblk2 V c 0 t) (iblk2 V c 1 t) (iblk2 V c 2 t) (iblk2 V c 3 t) j).trans ?_
  rw [Cert.Layers.out2_apply, Cert.Layers.logit2_apply]
  refine congrArg Ideal.logistic (congrArg₂ (· + ·) (Finset.sum_congr rfl fun k _ => ?_) ?_)
  · rw [Cert.Layers.act_apply]
    have h0 : iblk2 V c 0 t (lb j k) = V c main_v58 (Cert.Layers.l2 (((cfg2.win 4).blk t).view.emb j) k) := by
      show V c main_v58 (((cfg2.win 0).blk t).view.emb (lb j k)) = _
      refine congrArg (V c main_v58) (funext fun a => Fin.ext ?_)
      match a with
      | ⟨0, _⟩ => show win2_0.index t (0 : Fin 2) * 10000 + 1 * (j 0).val = win2_4.index t (0 : Fin 2) * 10000 + 1 * (j 0).val; rw [e0]
      | ⟨1, _⟩ => show win2_0.index t (1 : Fin 2) * 64 + 1 * k.val = k.val; rw [e1]; omega
    have hb : iblk2 V c 1 t (b0 (lb j k)) = V c main_v59 (Cert.Layers.brow (Cert.Layers.l2 (((cfg2.win 4).blk t).view.emb j) k)) := by
      show V c main_v59 (((cfg2.win 1).blk t).view.emb (b0 (lb j k))) = _
      refine congrArg (V c main_v59) (funext fun a => Fin.ext ?_)
      match a with
      | ⟨0, _⟩ => show win2_1.index t (0 : Fin 2) * 1 + 1 * 0 = 0; rw [e2]
      | ⟨1, _⟩ => show win2_1.index t (1 : Fin 2) * 64 + 1 * k.val = k.val; rw [e3]; omega
    have h2 : iblk2 V c 2 t (rb j k) = V c main_arg6 (Cert.Layers.r2 (((cfg2.win 4).blk t).view.emb j) k) := by
      show V c main_arg6 (((cfg2.win 2).blk t).view.emb (rb j k)) = _
      refine congrArg (V c main_arg6) (funext fun a => Fin.ext ?_)
      match a with
      | ⟨0, _⟩ => show win2_2.index t (0 : Fin 2) * 64 + 1 * k.val = k.val; rw [e4]; omega
      | ⟨1, _⟩ => show win2_2.index t (1 : Fin 2) * 1 + 1 * (j 1).val = win2_4.index t (1 : Fin 2) * 1 + 1 * (j 1).val; rw [e5, e8]
    rw [h0, hb, h2]
  · show V c main_v60 (((cfg2.win 3).blk t).view.emb o0) = V c main_v60 Cert.Layers.bone
    refine congrArg (V c main_v60) (funext fun a => Fin.ext ?_)
    match a with
    | ⟨0, _⟩ => show win2_3.index t (0 : Fin 2) * 1 + 1 * 0 = 0; rw [e6]
    | ⟨1, _⟩ => show win2_3.index t (1 : Fin 2) * 1 + 1 * 0 = 0; rw [e7]

/-- An entry of the output array lies in point `t`'s block iff each coordinate lies in the block's range. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v61).slice (win2_4.rect t)).set ↔ _
  rw [View.set_slice_whole, Rect.mem_set_unit]
  exact Iff.rfl

/-- Row `r` lies in the block of point `r / 10000`. -/
theorem cover (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 1 ≤ (i 1).val ∧ (i 1).val < win2_4.index t (1 : Fin 2) * 1 + 1; omega

/-- When the region ends its output array holds the output layer of the four operand arrays. -/
theorem final (c : Dev nD) :
    (dat2 (F := Ideal) V c).arrAt 4 cfg2.N
      = Cert.Layers.out2 (F := Ideal) (V c main_v58) (V c main_v59) (V c main_arg6) (V c main_v60) :=
  (dat2 (F := Ideal) V c).arrAt_eq_of_cover 4 _ (fun t _ => flushed_eq V c t) cover

end Cert.KernelIdeal.Region2

end
-- ==== Proof.Stretches.lean ====
/-
  The host operations of the kernel's program, stretch by stretch, read over the buffer contents `U` a stretch
  starts from (any contents: the three regions' outputs enter as hypotheses about `U`).

  Before the first region the program builds, from the edge list alone, the source ids and the target ids with every
  node's own id appended, and the symmetric normalisation d(source)^(-1/2) · d(target)^(-1/2), d the in-degree
  counted by a scatter-add of ones and inverted where positive. After each of the first two regions it gathers the
  region's rows at the source ids, scales row e by the normalisation's entry e, and scatter-adds into the target
  rows; it also reshapes the next region's bias vector to one row. The reference applies the same operations to the
  same operands — it only builds ids and normalisation a second time for its second layer —, so each stretch's
  result IS the reference's stage of the same name: after the stretch's fold is read back (one result lemma per
  operation) the two terms agree operation by operation, and nothing is evaluated.
-/
import proofs.«138245_j8770323219100_1_alg».proof.Proof.Gen.KernelIdeal.Launch
import proofs.«138245_j8770323219100_1_alg».proof.Proof.RefRead
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]
variable (U : Valuation τ sig (Elt F))

/-! ## Before the first region: ids and normalisation from the edge list -/

/-- The source ids, every node's own id appended. -/
theorem s0_rows : StableHlo.after hostOps0_2 (StableHlo.after hostOps0_1 (StableHlo.after hostOps0 U)) (Proc.devRef .tc main_v5)
    = Cert.ReferenceIdeal.ReadP.val_main_v4 (F := F) (U (Proc.devRef .tc main_arg1)) := by
  after_results_simp
  rfl

/-- The target ids, every node's own id appended. -/
theorem s0_cols : StableHlo.after hostOps0_2 (StableHlo.after hostOps0_1 (StableHlo.after hostOps0 U)) (Proc.devRef .tc main_v6)
    = Cert.ReferenceIdeal.ReadP.val_main_v7 (F := F) (U (Proc.devRef .tc main_arg1)) := by
  after_results_simp
  rfl

/-- The edge weights d(source)^(-1/2) · d(target)^(-1/2). -/
theorem s0_norm : StableHlo.after hostOps0_2 (StableHlo.after hostOps0_1 (StableHlo.after hostOps0 U)) (Proc.devRef .tc main_v29)
    = Cert.ReferenceIdeal.ReadP.val_main_v30 (F := F) (U (Proc.devRef .tc main_arg1)) := by
  after_results_simp
  rfl

/-! The arguments the later items read are not written. -/
theorem s0_arg0 : StableHlo.after hostOps0_2 (StableHlo.after hostOps0_1 (StableHlo.after hostOps0 U)) (Proc.devRef .tc main_arg0) = U (Proc.devRef .tc main_arg0) := by
  after_results_simp
theorem s0_arg2 : StableHlo.after hostOps0_2 (StableHlo.after hostOps0_1 (StableHlo.after hostOps0 U)) (Proc.devRef .tc main_arg2) = U (Proc.devRef .tc main_arg2) := by
  after_results_simp
theorem s0_arg3 : StableHlo.after hostOps0_2 (StableHlo.after hostOps0_1 (StableHlo.after hostOps0 U)) (Proc.devRef .tc main_arg3) = U (Proc.devRef .tc main_arg3) := by
  after_results_simp
theorem s0_arg4 : StableHlo.after hostOps0_2 (StableHlo.after hostOps0_1 (StableHlo.after hostOps0 U)) (Proc.devRef .tc main_arg4) = U (Proc.devRef .tc main_arg4) := by
  after_results_simp
theorem s0_arg5 : StableHlo.after hostOps0_2 (StableHlo.after hostOps0_1 (StableHlo.after hostOps0 U)) (Proc.devRef .tc main_arg5) = U (Proc.devRef .tc main_arg5) := by
  after_results_simp
theorem s0_arg6 : StableHlo.after hostOps0_2 (StableHlo.after hostOps0_1 (StableHlo.after hostOps0 U)) (Proc.devRef .tc main_arg6) = U (Proc.devRef .tc main_arg6) := by
  after_results_simp
theorem s0_arg7 : StableHlo.after hostOps0_2 (StableHlo.after hostOps0_1 (StableHlo.after hostOps0 U)) (Proc.devRef .tc main_arg7) = U (Proc.devRef .tc main_arg7) := by
  after_results_simp

/-! ## Between the first and the second region -/

/-- The first layer's aggregation: the region's rows gathered at the source ids, scaled, scatter-added at the targets. -/
theorem s1_agg (x0 : (⟨S100000x128, .f32⟩ : BufTy).Contents (Elt F)) (x1 : (⟨S2x1600000, .i32⟩ : BufTy).Contents (Elt F)) (x2 : (⟨S128x64, .f32⟩ : BufTy).Contents (Elt F))
    (h30 : U (Proc.devRef .tc main_v30) = Cert.ReferenceIdeal.ReadP.val_main_v0 (F := F) x0 x2)
    (h5 : U (Proc.devRef .tc main_v5) = Cert.ReferenceIdeal.ReadP.val_main_v4 (F := F) x1)
    (h6 : U (Proc.devRef .tc main_v6) = Cert.ReferenceIdeal.ReadP.val_main_v7 (F := F) x1)
    (h29 : U (Proc.devRef .tc main_v29) = Cert.ReferenceIdeal.ReadP.val_main_v30 (F := F) x1) :
    StableHlo.after hostOps1 U (Proc.devRef .tc main_v43) = Cert.ReferenceIdeal.ReadP.val_main_v43 (F := F) x0 x1 x2 := by
  after_results_simp
  rw [h30, h5, h6, h29]
  rfl

/-- The first bias vector as one row. -/
theorem s1_bias : StableHlo.after hostOps1 U (Proc.devRef .tc main_v44)
    = shapeCast S1x64 (U (Proc.devRef .tc main_arg3)) shapeCasts_S64_S1x64 := by
  after_results_simp
  rfl

theorem s1_v5 : StableHlo.after hostOps1 U (Proc.devRef .tc main_v5) = U (Proc.devRef .tc main_v5) := by
  after_results_simp
theorem s1_v6 : StableHlo.after hostOps1 U (Proc.devRef .tc main_v6) = U (Proc.devRef .tc main_v6) := by
  after_results_simp
theorem s1_v29 : StableHlo.after hostOps1 U (Proc.devRef .tc main_v29) = U (Proc.devRef .tc main_v29) := by
  after_results_simp
theorem s1_arg4 : StableHlo.after hostOps1 U (Proc.devRef .tc main_arg4) = U (Proc.devRef .tc main_arg4) := by
  after_results_simp
theorem s1_arg5 : StableHlo.after hostOps1 U (Proc.devRef .tc main_arg5) = U (Proc.devRef .tc main_arg5) := by
  after_results_simp
theorem s1_arg6 : StableHlo.after hostOps1 U (Proc.devRef .tc main_arg6) = U (Proc.devRef .tc main_arg6) := by
  after_results_simp
theorem s1_arg7 : StableHlo.after hostOps1 U (Proc.devRef .tc main_arg7) = U (Proc.devRef .tc main_arg7) := by
  after_results_simp

/-! ## Between the second and the third region -/

/-- The second layer's aggregation, of the second region's rows. -/
theorem s2_agg (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F))
    (h45 : U (Proc.devRef .tc main_v45) = Cert.ReferenceIdeal.ReadP.val_main_v48 (F := F) x0 x1 x2 x3 x4)
    (h5 : U (Proc.devRef .tc main_v5) = Cert.ReferenceIdeal.ReadP.val_main_v4 (F := F) x1)
    (h6 : U (Proc.devRef .tc main_v6) = Cert.ReferenceIdeal.ReadP.val_main_v7 (F := F) x1)
    (h29 : U (Proc.devRef .tc main_v29) = Cert.ReferenceIdeal.ReadP.val_main_v30 (F := F) x1) :
    StableHlo.after hostOps2 U (Proc.devRef .tc main_v58) = Cert.ReferenceIdeal.ReadP.val_main_v91 (F := F) x0 x1 x2 x3 x4 := by
  after_results_simp
  rw [h45, h5, h6, h29]
  rfl

/-- The second bias vector as one row, and the output bias as a 1 × 1 array. -/
theorem s2_bias : StableHlo.after hostOps2 U (Proc.devRef .tc main_v59)
    = shapeCast S1x64 (U (Proc.devRef .tc main_arg5)) shapeCasts_S64_S1x64 := by
  after_results_simp
  rfl
theorem s2_obias : StableHlo.after hostOps2 U (Proc.devRef .tc main_v60)
    = shapeCast S1x1 (U (Proc.devRef .tc main_arg7)) shapeCasts_S1_S1x1 := by
  after_results_simp
  rfl

theorem s2_arg6 : StableHlo.after hostOps2 U (Proc.devRef .tc main_arg6) = U (Proc.devRef .tc main_arg6) := by
  after_results_simp

end Cert.KernelIdeal.Stretch

end
-- ==== Proof.RefValue.lean ====
/-
  The reference's stages, as the layers of `Layers` applied to its earlier stages, and its two bias reshapes.

  The reference computes, in order: the first linear map; an aggregation over the graph; bias, rectifier and the
  second linear map; the same aggregation; bias, rectifier, the output map and the logistic function. Its stage
  after each dense layer is the corresponding layer function of the stage before: both sides are the same operations
  of the same operands, so each equation is by unfolding names. Where the reference turns a bias vector into one
  row by a broadcast along a new leading axis, a row-major reshape of the vector gives the same row: entry (0, k)
  of either is entry k of the vector.
-/
import proofs.«138245_j8770323219100_1_alg».proof.Proof.RefRead
import proofs.«138245_j8770323219100_1_alg».proof.Proof.Layers

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The dense stages are the layers -/

theorem stage_lin0 (x0 : (⟨S100000x128, .f32⟩ : BufTy).Contents (Elt F)) (x2 : (⟨S128x64, .f32⟩ : BufTy).Contents (Elt F)) :
    ReadP.val_main_v0 (F := F) x0 x2 = Cert.Layers.lin0 (F := F) x0 x2 := rfl

theorem stage_lin1 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) :
    ReadP.val_main_v48 (F := F) x0 x1 x2 x3 x4
      = Cert.Layers.lin1 (F := F) (ReadP.val_main_v43 (F := F) x0 x1 x2) (ReadP.val_main_v44 (F := F) x3) x4 := rfl

theorem stage_out2 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F))
    (x5 : (⟨S64, .f32⟩ : BufTy).Contents (Elt F)) (x6 : (⟨S64x1, .f32⟩ : BufTy).Contents (Elt F)) (x7 : (⟨S1, .f32⟩ : BufTy).Contents (Elt F)) :
    ReadP.val_main_v105 (F := F) x0 x1 x2 x3 x4 x5 x6 x7
      = Cert.Layers.out2 (F := F) (ReadP.val_main_v91 (F := F) x0 x1 x2 x3 x4) (ReadP.val_main_v44 (F := F) x5) x6 (ReadP.val_main_v97 (F := F) x7) := rfl

/-! ## A vector as one row, two ways -/

/-- A [64] vector reshaped to [1, 64] is the vector broadcast along a new leading axis. -/
theorem row_of_vec (x : (⟨S64, .f32⟩ : BufTy).Contents (Elt F)) (h : S64.ShapeCasts S1x64) :
    shapeCast S1x64 x h = ReadP.val_main_v44 (F := F) x := by
  funext i
  rw [ReadP.val_main_v44_apply]
  refine shapeCast_apply x h i (ReadP.idx_main_v44 i) ?_
  rw [Shape.rowMajor_val_two, Shape.rowMajor_val_one]
  show (i 1).val = (i 0).val * 64 + (i 1).val
  have h0 : (i 0).val < 1 := (i 0).isLt
  omega

/-- A [1] vector reshaped to [1, 1] is the vector broadcast along a new leading axis. -/
theorem one_of_vec (x : (⟨S1, .f32⟩ : BufTy).Contents (Elt F)) (h : S1.ShapeCasts S1x1) :
    shapeCast S1x1 x h = ReadP.val_main_v97 (F := F) x := by
  funext i
  rw [ReadP.val_main_v97_apply]
  refine shapeCast_apply x h i (ReadP.idx_main_v97 i) ?_
  rw [Shape.rowMajor_val_two, Shape.rowMajor_val_one]
  show 0 = (i 0).val * 1 + (i 1).val
  have h0 : (i 0).val < 1 := (i 0).isLt
  have h1 : (i 1).val < 1 := (i 1).isLt
  omega

end Cert.ReferenceIdeal.RefValue

end
-- ==== Proof.Chain.lean ====
/-
  The kernel's program from launch to return, on the extended reals: what each buffer holds at every boundary
  between a stretch of host operations and a region, as a function of the eight argument arrays.

  The boundaries W3 … W8 are the contents at the first region's entry and exit, the second's, the third's. A stretch's
  exit is the stretch read over its entry (`Stretch`); a region's exit holds, in the region's output array, the
  layer of the operand arrays found at its entry (`Region0`, `Region1`, `Region2`) and everywhere else what the
  entry held. Walking the six boundaries in order, the source ids, target ids and edge weights are the reference's
  (functions of the edge list alone, carried unchanged across every region), each region's output is the
  reference's stage after the same dense layer, each aggregation the reference's aggregation of that stage, and the
  returned array is the reference's result.
-/
import proofs.«138245_j8770323219100_1_alg».proof.Proof.Region0
import proofs.«138245_j8770323219100_1_alg».proof.Proof.Region1
import proofs.«138245_j8770323219100_1_alg».proof.Proof.Region2
import proofs.«138245_j8770323219100_1_alg».proof.Proof.Stretches
import proofs.«138245_j8770323219100_1_alg».proof.Proof.RefValue

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! The argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## The first region's entry: ids and edge weights from the edge list; the arguments untouched -/

theorem in0_rows (c : Dev nD) : W3 m ρ c (Proc.devRef .tc main_v5) = Cert.ReferenceIdeal.ReadP.val_main_v4 (F := Ideal) (a1 m c) :=
  Stretch.s0_rows (W0 m ρ c)
theorem in0_cols (c : Dev nD) : W3 m ρ c (Proc.devRef .tc main_v6) = Cert.ReferenceIdeal.ReadP.val_main_v7 (F := Ideal) (a1 m c) :=
  Stretch.s0_cols (W0 m ρ c)
theorem in0_norm (c : Dev nD) : W3 m ρ c (Proc.devRef .tc main_v29) = Cert.ReferenceIdeal.ReadP.val_main_v30 (F := Ideal) (a1 m c) :=
  Stretch.s0_norm (W0 m ρ c)
theorem in0_arg0 (c : Dev nD) : W3 m ρ c (Proc.devRef .tc main_arg0) = a0 m c :=
  Stretch.s0_arg0 (W0 m ρ c)
theorem in0_arg2 (c : Dev nD) : W3 m ρ c (Proc.devRef .tc main_arg2) = a2 m c :=
  Stretch.s0_arg2 (W0 m ρ c)
theorem in0_arg3 (c : Dev nD) : W3 m ρ c (Proc.devRef .tc main_arg3) = a3 m c :=
  Stretch.s0_arg3 (W0 m ρ c)
theorem in0_arg4 (c : Dev nD) : W3 m ρ c (Proc.devRef .tc main_arg4) = a4 m c :=
  Stretch.s0_arg4 (W0 m ρ c)
theorem in0_arg5 (c : Dev nD) : W3 m ρ c (Proc.devRef .tc main_arg5) = a5 m c :=
  Stretch.s0_arg5 (W0 m ρ c)
theorem in0_arg6 (c : Dev nD) : W3 m ρ c (Proc.devRef .tc main_arg6) = a6 m c :=
  Stretch.s0_arg6 (W0 m ρ c)
theorem in0_arg7 (c : Dev nD) : W3 m ρ c (Proc.devRef .tc main_arg7) = a7 m c :=
  Stretch.s0_arg7 (W0 m ρ c)

/-! ## The first region's exit: features times the first weight matrix -/

theorem out0 (c : Dev nD) : W4 m ρ c (Proc.devRef .tc main_v30) = Cert.ReferenceIdeal.ReadP.val_main_v0 (F := Ideal) (a0 m c) (a2 m c) := by
  refine (W4_arr m ρ c 2).trans ((Region0.final (V3 m ρ) c).trans ?_)
  rw [show V3 m ρ c main_arg0 = a0 m c from in0_arg0 m ρ c, show V3 m ρ c main_arg2 = a2 m c from in0_arg2 m ρ c]
  exact (Cert.ReferenceIdeal.RefValue.stage_lin0 _ _).symm
theorem out0_rows (c : Dev nD) : W4 m ρ c (Proc.devRef .tc main_v5) = Cert.ReferenceIdeal.ReadP.val_main_v4 (F := Ideal) (a1 m c) :=
  (W4_of_ne m ρ c main_v5 (by decide)).trans (in0_rows m ρ c)
theorem out0_cols (c : Dev nD) : W4 m ρ c (Proc.devRef .tc main_v6) = Cert.ReferenceIdeal.ReadP.val_main_v7 (F := Ideal) (a1 m c) :=
  (W4_of_ne m ρ c main_v6 (by decide)).trans (in0_cols m ρ c)
theorem out0_norm (c : Dev nD) : W4 m ρ c (Proc.devRef .tc main_v29) = Cert.ReferenceIdeal.ReadP.val_main_v30 (F := Ideal) (a1 m c) :=
  (W4_of_ne m ρ c main_v29 (by decide)).trans (in0_norm m ρ c)
theorem out0_arg3 (c : Dev nD) : W4 m ρ c (Proc.devRef .tc main_arg3) = a3 m c :=
  (W4_of_ne m ρ c main_arg3 (by decide)).trans (in0_arg3 m ρ c)
theorem out0_arg4 (c : Dev nD) : W4 m ρ c (Proc.devRef .tc main_arg4) = a4 m c :=
  (W4_of_ne m ρ c main_arg4 (by decide)).trans (in0_arg4 m ρ c)
theorem out0_arg5 (c : Dev nD) : W4 m ρ c (Proc.devRef .tc main_arg5) = a5 m c :=
  (W4_of_ne m ρ c main_arg5 (by decide)).trans (in0_arg5 m ρ c)
theorem out0_arg6 (c : Dev nD) : W4 m ρ c (Proc.devRef .tc main_arg6) = a6 m c :=
  (W4_of_ne m ρ c main_arg6 (by decide)).trans (in0_arg6 m ρ c)
theorem out0_arg7 (c : Dev nD) : W4 m ρ c (Proc.devRef .tc main_arg7) = a7 m c :=
  (W4_of_ne m ρ c main_arg7 (by decide)).trans (in0_arg7 m ρ c)

/-! ## The second region's entry: the first aggregation, the first bias as a row -/

theorem in1_agg (c : Dev nD) : W5 m ρ c (Proc.devRef .tc main_v43) = Cert.ReferenceIdeal.ReadP.val_main_v43 (F := Ideal) (a0 m c) (a1 m c) (a2 m c) :=
  Stretch.s1_agg (W4 m ρ c) _ _ _ (out0 m ρ c) (out0_rows m ρ c) (out0_cols m ρ c) (out0_norm m ρ c)
theorem in1_bias (c : Dev nD) : W5 m ρ c (Proc.devRef .tc main_v44) = Cert.ReferenceIdeal.ReadP.val_main_v44 (F := Ideal) (a3 m c) := by
  refine (Stretch.s1_bias (W4 m ρ c)).trans ?_
  rw [out0_arg3 m ρ c]
  exact Cert.ReferenceIdeal.RefValue.row_of_vec _ _
theorem in1_rows (c : Dev nD) : W5 m ρ c (Proc.devRef .tc main_v5) = Cert.ReferenceIdeal.ReadP.val_main_v4 (F := Ideal) (a1 m c) :=
  (Stretch.s1_v5 (W4 m ρ c)).trans (out0_rows m ρ c)
theorem in1_cols (c : Dev nD) : W5 m ρ c (Proc.devRef .tc main_v6) = Cert.ReferenceIdeal.ReadP.val_main_v7 (F := Ideal) (a1 m c) :=
  (Stretch.s1_v6 (W4 m ρ c)).trans (out0_cols m ρ c)
theorem in1_norm (c : Dev nD) : W5 m ρ c (Proc.devRef .tc main_v29) = Cert.ReferenceIdeal.ReadP.val_main_v30 (F := Ideal) (a1 m c) :=
  (Stretch.s1_v29 (W4 m ρ c)).trans (out0_norm m ρ c)
theorem in1_arg4 (c : Dev nD) : W5 m ρ c (Proc.devRef .tc main_arg4) = a4 m c :=
  (Stretch.s1_arg4 (W4 m ρ c)).trans (out0_arg4 m ρ c)
theorem in1_arg5 (c : Dev nD) : W5 m ρ c (Proc.devRef .tc main_arg5) = a5 m c :=
  (Stretch.s1_arg5 (W4 m ρ c)).trans (out0_arg5 m ρ c)
theorem in1_arg6 (c : Dev nD) : W5 m ρ c (Proc.devRef .tc main_arg6) = a6 m c :=
  (Stretch.s1_arg6 (W4 m ρ c)).trans (out0_arg6 m ρ c)
theorem in1_arg7 (c : Dev nD) : W5 m ρ c (Proc.devRef .tc main_arg7) = a7 m c :=
  (Stretch.s1_arg7 (W4 m ρ c)).trans (out0_arg7 m ρ c)

/-! ## The second region's exit: bias, rectifier, the second weight matrix -/

theorem out1 (c : Dev nD) : W6 m ρ c (Proc.devRef .tc main_v45) = Cert.ReferenceIdeal.ReadP.val_main_v48 (F := Ideal) (a0 m c) (a1 m c) (a2 m c) (a3 m c) (a4 m c) := by
  refine (W6_arr m ρ c 3).trans ((Region1.final (V5 m ρ) c).trans ?_)
  rw [show V5 m ρ c main_v43 = Cert.ReferenceIdeal.ReadP.val_main_v43 (F := Ideal) (a0 m c) (a1 m c) (a2 m c) from in1_agg m ρ c,
    show V5 m ρ c main_v44 = Cert.ReferenceIdeal.ReadP.val_main_v44 (F := Ideal) (a3 m c) from in1_bias m ρ c,
    show V5 m ρ c main_arg4 = a4 m c from in1_arg4 m ρ c]
  exact (Cert.ReferenceIdeal.RefValue.stage_lin1 _ _ _ _ _).symm
theorem out1_rows (c : Dev nD) : W6 m ρ c (Proc.devRef .tc main_v5) = Cert.ReferenceIdeal.ReadP.val_main_v4 (F := Ideal) (a1 m c) :=
  (W6_of_ne m ρ c main_v5 (by decide)).trans (in1_rows m ρ c)
theorem out1_cols (c : Dev nD) : W6 m ρ c (Proc.devRef .tc main_v6) = Cert.ReferenceIdeal.ReadP.val_main_v7 (F := Ideal) (a1 m c) :=
  (W6_of_ne m ρ c main_v6 (by decide)).trans (in1_cols m ρ c)
theorem out1_norm (c : Dev nD) : W6 m ρ c (Proc.devRef .tc main_v29) = Cert.ReferenceIdeal.ReadP.val_main_v30 (F := Ideal) (a1 m c) :=
  (W6_of_ne m ρ c main_v29 (by decide)).trans (in1_norm m ρ c)
theorem out1_arg5 (c : Dev nD) : W6 m ρ c (Proc.devRef .tc main_arg5) = a5 m c :=
  (W6_of_ne m ρ c main_arg5 (by decide)).trans (in1_arg5 m ρ c)
theorem out1_arg6 (c : Dev nD) : W6 m ρ c (Proc.devRef .tc main_arg6) = a6 m c :=
  (W6_of_ne m ρ c main_arg6 (by decide)).trans (in1_arg6 m ρ c)
theorem out1_arg7 (c : Dev nD) : W6 m ρ c (Proc.devRef .tc main_arg7) = a7 m c :=
  (W6_of_ne m ρ c main_arg7 (by decide)).trans (in1_arg7 m ρ c)

/-! ## The third region's entry: the second aggregation, the second bias as a row, the output bias as 1 × 1 -/

theorem in2_agg (c : Dev nD) : W7 m ρ c (Proc.devRef .tc main_v58) = Cert.ReferenceIdeal.ReadP.val_main_v91 (F := Ideal) (a0 m c) (a1 m c) (a2 m c) (a3 m c) (a4 m c) :=
  Stretch.s2_agg (W6 m ρ c) _ _ _ _ _ (out1 m ρ c) (out1_rows m ρ c) (out1_cols m ρ c) (out1_norm m ρ c)
theorem in2_bias (c : Dev nD) : W7 m ρ c (Proc.devRef .tc main_v59) = Cert.ReferenceIdeal.ReadP.val_main_v44 (F := Ideal) (a5 m c) := by
  refine (Stretch.s2_bias (W6 m ρ c)).trans ?_
  rw [out1_arg5 m ρ c]
  exact Cert.ReferenceIdeal.RefValue.row_of_vec _ _
theorem in2_obias (c : Dev nD) : W7 m ρ c (Proc.devRef .tc main_v60) = Cert.ReferenceIdeal.ReadP.val_main_v97 (F := Ideal) (a7 m c) := by
  refine (Stretch.s2_obias (W6 m ρ c)).trans ?_
  rw [out1_arg7 m ρ c]
  exact Cert.ReferenceIdeal.RefValue.one_of_vec _ _
theorem in2_arg6 (c : Dev nD) : W7 m ρ c (Proc.devRef .tc main_arg6) = a6 m c :=
  (Stretch.s2_arg6 (W6 m ρ c)).trans (out1_arg6 m ρ c)

/-! ## The third region's exit: the returned array is the reference's result -/

theorem result (c : Dev nD) : W8 m ρ c (Proc.devRef .tc main_v61)
    = Cert.ReferenceIdeal.ReadP.val_main_v105 (F := Ideal) (a0 m c) (a1 m c) (a2 m c) (a3 m c) (a4 m c) (a5 m c) (a6 m c) (a7 m c) := by
  refine (W8_arr m ρ c 4).trans ((Region2.final (V7 m ρ) c).trans ?_)
  rw [show V7 m ρ c main_v58 = Cert.ReferenceIdeal.ReadP.val_main_v91 (F := Ideal) (a0 m c) (a1 m c) (a2 m c) (a3 m c) (a4 m c) from in2_agg m ρ c,
    show V7 m ρ c main_v59 = Cert.ReferenceIdeal.ReadP.val_main_v44 (F := Ideal) (a5 m c) from in2_bias m ρ c,
    show V7 m ρ c main_arg6 = a6 m c from in2_arg6 m ρ c,
    show V7 m ρ c main_v60 = Cert.ReferenceIdeal.ReadP.val_main_v97 (F := Ideal) (a7 m c) from in2_obias m ρ c]
  exact (Cert.ReferenceIdeal.RefValue.stage_out2 _ _ _ _ _ _ _ _).symm

end Cert.KernelIdeal.Chain

end
-- ==== Proof.lean ====
/-
  A two-layer graph convolution with a logistic output, N = 100000 nodes and E = 1600000 edges: the kernel against
  its reference, on the extended reals.

  Both programs compute, for features x, edge list (s, t) with every node's self-loop appended, and weights
  W₁, b₁, W₂, b₂, W, b:
      d   = in-degree by target,           n(e) = d(s e)^(-1/2) · d(t e)^(-1/2)   (0 where a degree is 0),
      A y = the array whose row v is ∑_{e : t e = v} n(e) · y(s e),
      h₁  = max (A (x W₁) + b₁) 0,   h₂ = max (A (h₁ W₂) + b₂) 0,   out = logistic (h₂ W + b).
  The reference does the dense steps with whole-array contractions on the host; the kernel does them in three
  pallas_calls over ten blocks of 10000 rows, with the bias and the rectifier of a layer fused into the next
  product and the logistic function into the last, and builds the ids and n once where the reference builds them
  per layer. Gathers, scatter-adds and the index arithmetic around them are the same operations of the same operands
  in both, so they are carried as they stand. What is proved is that each pallas_call leaves in its output array the
  dense layer of the arrays it found (`Region0`, `Region1`, `Region2`: a block product into a zero accumulator is
  the row-times-column sum, a change of float format is the identity, ten row blocks tile the array), and that the
  kernel's logistic operation is the reference's 1 / (1 + exp (−z)). No step distributes, cancels or reorders across
  an infinity, so the inputs' finiteness is never used.
-/
import proofs.«138245_j8770323219100_1_alg».proof.Defs
import proofs.«138245_j8770323219100_1_alg».proof.Proof.Gen.Kernel
import proofs.«138245_j8770323219100_1_alg».proof.Proof.Gen.Kernel.Frame
import proofs.«138245_j8770323219100_1_alg».proof.Proof.Gen.KernelIdeal
import proofs.«138245_j8770323219100_1_alg».proof.Proof.Gen.KernelIdeal.Frame
import proofs.«138245_j8770323219100_1_alg».proof.Proof.Gen.ReferenceIdeal
import proofs.«138245_j8770323219100_1_alg».proof.Proof.Gen.Pre_finite_inputs
import proofs.«138245_j8770323219100_1_alg».proof.Proof.Launch
import proofs.«138245_j8770323219100_1_alg».proof.Proof.Chain
import proofs.«138245_j8770323219100_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs to the end, nothing faulting, its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the eight arguments both programs end with the reference's last stage of those
    arguments in their result arrays. -/
theorem algebraic : Cert.algebraic_KernelIdeal_ReferenceIdeal := by
  intro m ρ m' ρ' _ hagree
  refine ⟨fun c => Cert.ReferenceIdeal.ReadP.val_main_v105 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v105_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
